-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S5000x128 : Shape := ⟨2, ![5000, 128]⟩
abbrev S700000x128 : Shape := ⟨2, ![700000, 128]⟩
abbrev S1x128 : Shape := ⟨2, ![1, 128]⟩

abbrev nBuf : Space → Nat
  | .hbm => 85
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x600000, .i32⟩
  | .hbm, ⟨8, _⟩ => ⟨S600000, .i32⟩
  | .hbm, ⟨9, _⟩ => ⟨S700000, .i32⟩
  | .hbm, ⟨10, _⟩ => ⟨S1x600000, .i32⟩
  | .hbm, ⟨11, _⟩ => ⟨S600000, .i32⟩
  | .hbm, ⟨12, _⟩ => ⟨S700000, .i32⟩
  | .hbm, ⟨13, _⟩ => ⟨S_, .f32⟩
  | .hbm, ⟨14, _⟩ => ⟨S700000, .f32⟩
  | .hbm, ⟨15, _⟩ => ⟨S_, .f32⟩
  | .hbm, ⟨16, _⟩ => ⟨S100000, .f32⟩
  | .hbm, ⟨17, _⟩ => ⟨S700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S700000, .i32⟩
  | .hbm, ⟨29, _⟩ => ⟨S700000, .i1⟩
  | .hbm, ⟨30, _⟩ => ⟨S_, .i32⟩
  | .hbm, ⟨31, _⟩ => ⟨S700000, .i32⟩
  | .hbm, ⟨32, _⟩ => ⟨S700000, .i32⟩
  | .hbm, ⟨33, _⟩ => ⟨S700000, .i32⟩
  | .hbm, ⟨34, _⟩ => ⟨S700000x1, .i32⟩
  | .hbm, ⟨35, _⟩ => ⟨S700000, .f32⟩
  | .hbm, ⟨36, _⟩ => ⟨S_, .i32⟩
  | .hbm, ⟨37, _⟩ => ⟨S700000, .i32⟩
  | .hbm, ⟨38, _⟩ => ⟨S700000, .i1⟩
  | .hbm, ⟨39, _⟩ => ⟨S_, .i32⟩
  | .hbm, ⟨40, _⟩ => ⟨S700000, .i32⟩
  | .hbm, ⟨41, _⟩ => ⟨S700000, .i32⟩
  | .hbm, ⟨42, _⟩ => ⟨S700000, .i32⟩
  | .hbm, ⟨43, _⟩ => ⟨S700000x1, .i32⟩
  | .hbm, ⟨44, _⟩ => ⟨S700000, .f32⟩
  | .hbm, ⟨45, _⟩ => ⟨S700000, .f32⟩
  | .hbm, ⟨46, _⟩ => ⟨S700000x1, .f32⟩
  | .hbm, ⟨47, _⟩ => ⟨S100000x128, .f32⟩
  | .hbm, ⟨48, _⟩ => ⟨S_, .i32⟩
  | .hbm, ⟨49, _⟩ => ⟨S700000, .i32⟩
  | .hbm, ⟨50, _⟩ => ⟨S700000, .i1⟩
  | .hbm, ⟨51, _⟩ => ⟨S_, .i32⟩
  | .hbm, ⟨52, _⟩ => ⟨S700000, .i32⟩
  | .hbm, ⟨53, _⟩ => ⟨S700000, .i32⟩
  | .hbm, ⟨54, _⟩ => ⟨S700000, .i32⟩
  | .hbm, ⟨55, _⟩ => ⟨S700000x1, .i32⟩
  | .hbm, ⟨56, _⟩ => ⟨S700000x128, .f32⟩
  | .hbm, ⟨57, _⟩ => ⟨S700000x128, .f32⟩
  | .hbm, ⟨58, _⟩ => ⟨S700000x128, .f32⟩
  | .hbm, ⟨59, _⟩ => ⟨S_, .f32⟩
  | .hbm, ⟨60, _⟩ => ⟨S100000x128, .f32⟩
  | .hbm, ⟨61, _⟩ => ⟨S700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S_, .i32⟩
  | .hbm, ⟨68, _⟩ => ⟨S700000, .i32⟩
  | .hbm, ⟨69, _⟩ => ⟨S700000, .i1⟩
  | .hbm, ⟨70, _⟩ => ⟨S_, .i32⟩
  | .hbm, ⟨71, _⟩ => ⟨S700000, .i32⟩
  | .hbm, ⟨72, _⟩ => ⟨S700000, .i32⟩
  | .hbm, ⟨73, _⟩ => ⟨S700000, .i32⟩
  | .hbm, ⟨74, _⟩ => ⟨S700000x1, .i32⟩
  | .hbm, ⟨75, _⟩ => ⟨S700000x128, .f32⟩
  | .hbm, ⟨76, _⟩ => ⟨S700000x128, .f32⟩
  | .hbm, ⟨77, _⟩ => ⟨S700000x128, .f32⟩
  | .hbm, ⟨78, _⟩ => ⟨S_, .f32⟩
  | .hbm, ⟨79, _⟩ => ⟨S100000x128, .f32⟩
  | .hbm, ⟨80, _⟩ => ⟨S700000x1, .i32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S5000x128_S128x128_S5000x128_1_0_0_1_n_n_wf : DotDims.WF S5000x128 S128x128 S5000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩

abbrev nBuf : Space → Nat
  | .hbm => 108
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x600000, .i32⟩
  | .hbm, ⟨8, _⟩ => ⟨S600000, .i32⟩
  | .hbm, ⟨9, _⟩ => ⟨S700000, .i32⟩
  | .hbm, ⟨10, _⟩ => ⟨S1x600000, .i32⟩
  | .hbm, ⟨11, _⟩ => ⟨S600000, .i32⟩
  | .hbm, ⟨12, _⟩ => ⟨S700000, .i32⟩
  | .hbm, ⟨13, _⟩ => ⟨S_, .f32⟩
  | .hbm, ⟨14, _⟩ => ⟨S700000, .f32⟩
  | .hbm, ⟨15, _⟩ => ⟨S_, .f32⟩
  | .hbm, ⟨16, _⟩ => ⟨S100000, .f32⟩
  | .hbm, ⟨17, _⟩ => ⟨S700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x128, .f32⟩
  | .hbm, ⟨28, _⟩ => ⟨S_, .i32⟩
  | .hbm, ⟨29, _⟩ => ⟨S700000, .i32⟩
  | .hbm, ⟨30, _⟩ => ⟨S700000, .i1⟩
  | .hbm, ⟨31, _⟩ => ⟨S_, .i32⟩
  | .hbm, ⟨32, _⟩ => ⟨S700000, .i32⟩
  | .hbm, ⟨33, _⟩ => ⟨S700000, .i32⟩
  | .hbm, ⟨34, _⟩ => ⟨S700000, .i32⟩
  | .hbm, ⟨35, _⟩ => ⟨S700000x1, .i32⟩
  | .hbm, ⟨36, _⟩ => ⟨S700000, .f32⟩
  | .hbm, ⟨37, _⟩ => ⟨S_, .i32⟩
  | .hbm, ⟨38, _⟩ => ⟨S700000, .i32⟩
  | .hbm, ⟨39, _⟩ => ⟨S700000, .i1⟩
  | .hbm, ⟨40, _⟩ => ⟨S_, .i32⟩
  | .hbm, ⟨41, _⟩ => ⟨S700000, .i32⟩
  | .hbm, ⟨42, _⟩ => ⟨S700000, .i32⟩
  | .hbm, ⟨43, _⟩ => ⟨S700000, .i32⟩
  | .hbm, ⟨44, _⟩ => ⟨S700000x1, .i32⟩
  | .hbm, ⟨45, _⟩ => ⟨S700000, .f32⟩
  | .hbm, ⟨46, _⟩ => ⟨S700000, .f32⟩
  | .hbm, ⟨47, _⟩ => ⟨S_, .i32⟩
  | .hbm, ⟨48, _⟩ => ⟨S700000, .i32⟩
  | .hbm, ⟨49, _⟩ => ⟨S700000, .i1⟩
  | .hbm, ⟨50, _⟩ => ⟨S_, .i32⟩
  | .hbm, ⟨51, _⟩ => ⟨S700000, .i32⟩
  | .hbm, ⟨52, _⟩ => ⟨S700000, .i32⟩
  | .hbm, ⟨53, _⟩ => ⟨S700000, .i32⟩
  | .hbm, ⟨54, _⟩ => ⟨S700000x1, .i32⟩
  | .hbm, ⟨55, _⟩ => ⟨S700000x128, .f32⟩
  | .hbm, ⟨56, _⟩ => ⟨S700000x1, .f32⟩
  | .hbm, ⟨57, _⟩ => ⟨S700000x128, .f32⟩
  | .hbm, ⟨58, _⟩ => ⟨S700000x128, .f32⟩
  | .hbm, ⟨59, _⟩ => ⟨S_, .f32⟩
  | .hbm, ⟨60, _⟩ => ⟨S100000x128, .f32⟩
  | .hbm, ⟨61, _⟩ => ⟨S700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S700000, .i32⟩
  | .hbm, ⟨72, _⟩ => ⟨S700000, .i1⟩
  | .hbm, ⟨73, _⟩ => ⟨S_, .i32⟩
  | .hbm, ⟨74, _⟩ => ⟨S700000, .i32⟩
  | .hbm, ⟨75, _⟩ => ⟨S700000, .i32⟩
  | .hbm, ⟨76, _⟩ => ⟨S700000, .i32⟩
  | .hbm, ⟨77, _⟩ => ⟨S700000x1, .i32⟩
  | .hbm, ⟨78, _⟩ => ⟨S700000, .f32⟩
  | .hbm, ⟨79, _⟩ => ⟨S_, .i32⟩
  | .hbm, ⟨80, _⟩ => ⟨S700000, .i32⟩
  | .hbm, ⟨81, _⟩ => ⟨S700000, .i1⟩
  | .hbm, ⟨82, _⟩ => ⟨S_, .i32⟩
  | .hbm, ⟨83, _⟩ => ⟨S700000, .i32⟩
  | .hbm, ⟨84, _⟩ => ⟨S700000, .i32⟩
  | .hbm, ⟨85, _⟩ => ⟨S700000, .i32⟩
  | .hbm, ⟨86, _⟩ => ⟨S700000x1, .i32⟩
  | .hbm, ⟨87, _⟩ => ⟨S700000, .f32⟩
  | .hbm, ⟨88, _⟩ => ⟨S700000, .f32⟩
  | .hbm, ⟨89, _⟩ => ⟨S_, .i32⟩
  | .hbm, ⟨90, _⟩ => ⟨S700000, .i32⟩
  | .hbm, ⟨91, _⟩ => ⟨S700000, .i1⟩
  | .hbm, ⟨92, _⟩ => ⟨S_, .i32⟩
  | .hbm, ⟨93, _⟩ => ⟨S700000, .i32⟩
  | .hbm, ⟨94, _⟩ => ⟨S700000, .i32⟩
  | .hbm, ⟨95, _⟩ => ⟨S700000, .i32⟩
  | .hbm, ⟨96, _⟩ => ⟨S700000x1, .i32⟩
  | .hbm, ⟨97, _⟩ => ⟨S700000x128, .f32⟩
  | .hbm, ⟨98, _⟩ => ⟨S700000x1, .f32⟩
  | .hbm, ⟨99, _⟩ => ⟨S700000x128, .f32⟩
  | .hbm, ⟨100, _⟩ => ⟨S700000x128, .f32⟩
  | .hbm, ⟨101, _⟩ => ⟨S_, .f32⟩
  | .hbm, ⟨102, _⟩ => ⟨S100000x128, .f32⟩
  | .hbm, ⟨103, _⟩ => ⟨S700000x1, .i32⟩
  | .hbm, ⟨104, _⟩ => ⟨S100000x128, .f32⟩
  | .hbm, ⟨105, _⟩ => ⟨S1x128, .f32⟩
  | .hbm, ⟨106, _⟩ => ⟨S100000x128, .f32⟩
  | .hbm, ⟨107, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S700000x1_S700000_n_0_0_1_wf : ScatterDims.WF S100000 S700000x1 S700000 [] [0] [0] 1
  dot_S100000x128_S128x128_S100000x128_1_0_0_1_n_n_wf : DotDims.WF S100000x128 S128x128 S100000x128 [1] [0] [0] [1] [] []
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

class Facts : Prop extends Facts₀ where

variable [Facts]
-- ==== Proof.Spec.lean ====
/-
  Two layers of graph convolution, the parts that are plain linear algebra.

  A node-feature matrix has 100000 rows (nodes) and 128 columns (features); a weight matrix is 128 by 128. The
  linear transform of a layer is the matrix product, entry (n, f) being the sum over k of x[n, k] * w[k, f]; the
  second layer applies it to the positive part max(a, 0) of the first layer's aggregate. Both are stated over the
  extended reals, entry by entry, with no order of summation.
-/
import Idealize.ShloMosaic.PureOps.Ideal
import Idealize.ShloMosaic.PureOps.Ideal.Laws
import Idealize.ShloMosaic.Lib.ValueIdx

noncomputable section

namespace Cert.Gcn

open Idealize.ShloMosaic

/-- Node features: 100000 nodes by 128 features. -/
abbrev Nodes : Shape := ⟨2, ![100000, 128]⟩
/-- A layer's weights: 128 by 128. -/
abbrev Wts : Shape := ⟨2, ![128, 128]⟩

/-- The matrix product x · w: entry (n, f) is the sum over k of x[n, k] * w[k, f]. -/
def linear (x : Nodes.Idx → EReal) (w : Wts.Idx → EReal) : Nodes.Idx → EReal :=
  fun i => ∑ k : Fin 128, x (ValueIdx.ix2 (n0 := 100000) (n1 := 128) (i 0) k) * w (ValueIdx.ix2 (n0 := 128) (n1 := 128) k (i 1))

/-- The matrix product of the positive part: entry (n, f) is the sum over k of max(a[n, k], 0) * w[k, f]. -/
def reluLinear (a : Nodes.Idx → EReal) (w : Wts.Idx → EReal) : Nodes.Idx → EReal :=
  fun i => ∑ k : Fin 128, max (a (ValueIdx.ix2 (n0 := 100000) (n1 := 128) (i 0) k)) 0 * w (ValueIdx.ix2 (n0 := 128) (n1 := 128) k (i 1))

theorem linear_apply (x : Nodes.Idx → EReal) (w : Wts.Idx → EReal) (i : Nodes.Idx) :
    linear x w i = ∑ k : Fin 128, x (ValueIdx.ix2 (n0 := 100000) (n1 := 128) (i 0) k) * w (ValueIdx.ix2 (n0 := 128) (n1 := 128) k (i 1)) := rfl

theorem reluLinear_apply (a : Nodes.Idx → EReal) (w : Wts.Idx → EReal) (i : Nodes.Idx) :
    reluLinear a w i = ∑ k : Fin 128, max (a (ValueIdx.ix2 (n0 := 100000) (n1 := 128) (i 0) k)) 0 * w (ValueIdx.ix2 (n0 := 128) (n1 := 128) k (i 1)) := rfl

end Cert.Gcn

end
-- ==== Proof.Aggregate.lean ====
/-
  The graph side of a layer, shared by the two programs, and the reference read through it.

  A layer aggregates a per-node matrix h over the edges: the edge list is the 600000 given edges followed by one self loop
  per node; each edge e carries the weight norm[e] (the product of the inverse square roots of its end points' degrees); the
  row of h at the edge's source (a negative source counted from the end) is scaled by the weight and added into the row of the
  edge's target; the bias is added to every row. `aggregate h src dst norm b` is that map, spelt with the host operations the
  programs print for it, so that neither the gather nor the scatter-add is ever opened: the two programs apply this one function,
  and only what they feed it (the linear transforms) is compared.

  The reference, read one operation at a time, is then: the first layer's aggregate of x · W1, and the second layer's aggregate of
  max(first, 0) · W2, the two layers' edge weights being one and the same function of the edge list.
-/
import proofs.«143653_j29257317220812_1_alg».proof.Proof.RefRead
import proofs.«143653_j29257317220812_1_alg».proof.Proof.Spec

noncomputable section

namespace Cert.ReferenceIdeal.Layers

open Cert.ReferenceIdeal Cert.ReferenceIdeal.Gen Cert.ReferenceIdeal.ReadP Idealize.ShloMosaic Idealize.ShloMosaic.TcCoe Idealize.SL.Sem
open Cert.Gcn

section AnyValues

variable {F : FTy → Type} [FloatOps F]

/-- One layer's aggregation of the per-node matrix `h` over the edges `(src[e], dst[e])` with weights `norm[e]`, plus the bias:
    zeros, scatter-added at the targets with the gathered source rows times the weights, plus `b` on every row. -/
def aggregate (h : (⟨S100000x128, .f32⟩ : BufTy).Contents (Elt F)) (src dst : (⟨S700000, .i32⟩ : BufTy).Contents (Elt F))
    (norm : (⟨S700000x1, .f32⟩ : BufTy).Contents (Elt F)) (b : (⟨S128, .f32⟩ : BufTy).Contents (Elt F)) :
    (⟨S100000x128, .f32⟩ : BufTy).Contents (Elt F) :=
  addf (Host.scatterAdd scatter_S100000x128_S700000x1_S700000x128_1_0_0_1
      (broadcastInDim S100000x128 ![] bcast_S_S100000x128 (constant (F := F) S_ .f32 0x00000000#32))
      (broadcastInDim S700000x1 ![0] bcast_S700000_S700000x1_0 dst)
      (mulf (Host.gather gather_S100000x128_S700000x1_S700000x128_1_0_n_n_0_1_1128 h
          (broadcastInDim S700000x1 ![0] bcast_S700000_S700000x1_0
            (select (cmpi .slt src (broadcastInDim S700000 ![] bcast_S_S700000 (constantI S_ 32 0#32)))
              (addi src (broadcastInDim S700000 ![] bcast_S_S700000 (constantI S_ 32 100000#32))) src)))
        (broadcastInDim S700000x128 ![0, 1] bcast_S700000x1_S700000x128_0_1 norm)))
    (broadcastInDim S100000x128 ![0, 1] bcast_S1x128_S100000x128_0_1 (broadcastInDim S1x128 ![1] bcast_S128_S1x128_1 b))

/-- The reference's first layer is the aggregate of its first linear transform. -/
theorem first_layer (x0 : (⟨S100000x128, .f32⟩ : BufTy).Contents (Elt F)) (x1 : (⟨S2x600000, .i32⟩ : BufTy).Contents (Elt F))
    (x2 : (⟨S128x128, .f32⟩ : BufTy).Contents (Elt F)) (x3 : (⟨S128, .f32⟩ : BufTy).Contents (Elt F)) :
    val_main_v46 (F := F) x0 x1 x2 x3
      = aggregate (val_main_v15 (F := F) x0 x2) (val_main_v3 (F := F) x1) (val_main_v6 (F := F) x1) (val_main_v38 (F := F) x1) x3 := rfl

/-- The second layer's edge weights are the first layer's: the same operations of the same edge list. -/
theorem same_weights (x1 : (⟨S2x600000, .i32⟩ : BufTy).Contents (Elt F)) :
    val_main_v71 (F := F) x1 = val_main_v38 (F := F) x1 := rfl

/-- The reference's result is the aggregate of its second linear transform. -/
theorem second_layer (x0 : (⟨S100000x128, .f32⟩ : BufTy).Contents (Elt F)) (x1 : (⟨S2x600000, .i32⟩ : BufTy).Contents (Elt F))
    (x2 : (⟨S128x128, .f32⟩ : BufTy).Contents (Elt F)) (x3 : (⟨S128, .f32⟩ : BufTy).Contents (Elt F))
    (x4 : (⟨S128x128, .f32⟩ : BufTy).Contents (Elt F)) (x5 : (⟨S128, .f32⟩ : BufTy).Contents (Elt F)) :
    val_main_v79 (F := F) x0 x1 x2 x3 x4 x5
      = aggregate (val_main_v48 (F := F) x0 x1 x2 x3 x4) (val_main_v3 (F := F) x1) (val_main_v6 (F := F) x1) (val_main_v71 (F := F) x1) x5 := rfl

end AnyValues

/-! ## The two linear transforms of the reference, over the extended reals -/

theorem lidx_eq (i : S100000x128.Idx) (k : Fin 128) : lidx_main_v15 i k = ValueIdx.ix2 (n0 := 100000) (n1 := 128) (i 0) k :=
  funext fun a => by match a with | ⟨0, _⟩ => rfl | ⟨1, _⟩ => rfl
theorem ridx_eq (i : S100000x128.Idx) (k : Fin 128) : ridx_main_v15 i k = ValueIdx.ix2 (n0 := 128) (n1 := 128) k (i 1) :=
  funext fun a => by match a with | ⟨0, _⟩ => rfl | ⟨1, _⟩ => rfl
theorem lidx_eq' (i : S100000x128.Idx) (k : Fin 128) : lidx_main_v48 i k = ValueIdx.ix2 (n0 := 100000) (n1 := 128) (i 0) k :=
  funext fun a => by match a with | ⟨0, _⟩ => rfl | ⟨1, _⟩ => rfl
theorem ridx_eq' (i : S100000x128.Idx) (k : Fin 128) : ridx_main_v48 i k = ValueIdx.ix2 (n0 := 128) (n1 := 128) k (i 1) :=
  funext fun a => by match a with | ⟨0, _⟩ => rfl | ⟨1, _⟩ => rfl

/-- The host's product of the features and the first weights is the matrix product. -/
theorem first_linear (x0 : (⟨S100000x128, .f32⟩ : BufTy).Contents (Elt Ideal)) (x2 : (⟨S128x128, .f32⟩ : BufTy).Contents (Elt Ideal)) :
    val_main_v15 (F := Ideal) x0 x2 = linear x0 x2 := by
  funext i
  rw [val_main_v15_apply, linear_apply]
  refine Finset.sum_congr rfl fun k _ => ?_
  rw [lidx_eq, ridx_eq]

/-- The host's product of the positive part of the first layer and the second weights is the matrix product of the positive part. -/
theorem second_linear (x0 : (⟨S100000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v48 (F := Ideal) x0 x1 x2 x3 x4 = reluLinear (val_main_v46 (F := Ideal) x0 x1 x2 x3) x4 := by
  funext i
  rw [val_main_v48_apply, reluLinear_apply]
  refine Finset.sum_congr rfl fun k _ => ?_
  rw [lidx_eq', ridx_eq', val_main_v47_apply, val_main_call1_v0_apply, val_main_call1_cst_apply]
  simp only [Ideal.maximumf_def, Ideal.ofBits_def, Ideal.ofBits_zero_f32]

/-! ## The whole map -/

/-- Two layers: the aggregate of the positive part of the first layer's aggregate of x · W1 + b1, times W2, plus b2 — with the edge
    arrays and weights the reference's stages of the edge list. -/
def twoLayers (x0 : (⟨S100000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    (⟨S100000x128, .f32⟩ : BufTy).Contents (Elt Ideal) :=
  aggregate (F := Ideal)
    (reluLinear (aggregate (F := Ideal) (linear x0 x2) (val_main_v3 (F := Ideal) x1) (val_main_v6 (F := Ideal) x1) (val_main_v38 (F := Ideal) x1) x3) x4)
    (val_main_v3 (F := Ideal) x1) (val_main_v6 (F := Ideal) x1) (val_main_v38 (F := Ideal) x1) x5

/-- The reference computes it. -/
theorem reference_eq (x0 : (⟨S100000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v79 (F := Ideal) x0 x1 x2 x3 x4 x5 = twoLayers x0 x1 x2 x3 x4 x5 := by
  rw [second_layer, same_weights, second_linear, first_layer, first_linear]
  rfl

end Cert.ReferenceIdeal.Layers

end
-- ==== Proof.KernelHost.lean ====
/-
  The host side of the kernel's program, read at the boundaries between its stretches of host operations and its two kernel regions.

  Before the first region the program computes, from the edge list alone, the source and target index of every edge (the given
  edges followed by a self loop per node) and the per-edge weight; these are the reference's own operations, so the three arrays are
  the reference's stages of the edge list. Between the regions and after the second one it aggregates a region's result over the
  edges and adds a bias: the map `aggregate` of what the stretch finds in memory. No stretch writes an array an earlier one
  produced, and a region writes only its own result, so the edge arrays, the weights and the arguments are the same at every boundary.
-/
import proofs.«143653_j29257317220812_1_alg».proof.Proof.Gen.KernelIdeal.Frame
import proofs.«143653_j29257317220812_1_alg».proof.Proof.Aggregate
import Idealize.ShloMosaic.Lib.StableHlo.Run

set_option maxRecDepth 16384

noncomputable section

namespace Cert.KernelIdeal.Layers

open Cert.KernelIdeal Cert.KernelIdeal.Gen Idealize.ShloMosaic Idealize.ShloMosaic.TcCoe Idealize.SL.Sem Idealize.ShloMosaic.StableHlo
open Cert.ReferenceIdeal.Layers (aggregate)

variable {F : FTy → Type} [FloatOps F]
variable (m : (ℓ : Loc nD τ sig) → Buf (Elt F) ℓ) (ρ : Dev nD → PrngReg)

/-- Reads a buffer after a stretch of host operations: every operation's result at its own buffer is its function of its
    operands' contents, at any other buffer what was there; a joined array's pieces are read the same way. -/
local macro "host_read" : tactic =>
  `(tactic| (after_results_simp
             repeat (first
               | rw [nullary_result] | rw [unary_result] | rw [binary_result] | rw [reshape_result]
               | (rw [nullary_result_ne]; rotate_left; decide)
               | (rw [unary_result_ne]; rotate_left; decide)
               | (rw [binary_result_ne]; rotate_left; decide)
               | (rw [reshape_result_ne]; rotate_left; decide))))

/-! ## Before the first region: the edge arrays and the weights are the reference's stages of the edge list -/

set_option maxHeartbeats 4000000 in
/-- Every edge's source index. -/
theorem src_eq (c : Dev nD) :
    W3 m ρ c (Proc.devRef .tc main_v3) = Cert.ReferenceIdeal.ReadP.val_main_v3 (F := F) (m ((c : Thread nD τ).loc main_arg1)) := by
  show StableHlo.after hostOps0_2 (StableHlo.after hostOps0_1 (StableHlo.after hostOps0 (W0 m ρ c))) (Proc.devRef .tc main_v3) = _
  host_read
  rfl

set_option maxHeartbeats 4000000 in
/-- Every edge's target index. -/
theorem dst_eq (c : Dev nD) :
    W3 m ρ c (Proc.devRef .tc main_v6) = Cert.ReferenceIdeal.ReadP.val_main_v6 (F := F) (m ((c : Thread nD τ).loc main_arg1)) := by
  show StableHlo.after hostOps0_2 (StableHlo.after hostOps0_1 (StableHlo.after hostOps0 (W0 m ρ c))) (Proc.devRef .tc main_v6) = _
  host_read
  rfl

set_option maxHeartbeats 8000000 in
/-- Every edge's weight, as a column. -/
theorem norm_eq (c : Dev nD) :
    W3 m ρ c (Proc.devRef .tc main_v30) = Cert.ReferenceIdeal.ReadP.val_main_v38 (F := F) (m ((c : Thread nD τ).loc main_arg1)) := by
  show StableHlo.after hostOps0_2 (StableHlo.after hostOps0_1 (StableHlo.after hostOps0 (W0 m ρ c))) (Proc.devRef .tc main_v30) = _
  host_read
  rfl

/-! ## A stretch after a region: the aggregate of what it finds -/

/-- Between the regions: the first layer's aggregate of the first region's result. -/
theorem mid_eq (c : Dev nD) :
    W5 m ρ c (Proc.devRef .tc main_v46)
      = aggregate (F := F) (W4 m ρ c (Proc.devRef .tc main_v31)) (W4 m ρ c (Proc.devRef .tc main_v3)) (W4 m ρ c (Proc.devRef .tc main_v6))
          (W4 m ρ c (Proc.devRef .tc main_v30)) (W4 m ρ c (Proc.devRef .tc main_arg3)) := by
  show StableHlo.after hostOps1 (W4 m ρ c) (Proc.devRef .tc main_v46) = _
  generalize W4 m ρ c = W
  after_results_simp
  rfl

/-- After the second region: the second layer's aggregate of the second region's result. -/
theorem out_eq (c : Dev nD) :
    W7 m ρ c (Proc.devRef .tc main_v62)
      = aggregate (F := F) (W6 m ρ c (Proc.devRef .tc main_v47)) (W6 m ρ c (Proc.devRef .tc main_v3)) (W6 m ρ c (Proc.devRef .tc main_v6))
          (W6 m ρ c (Proc.devRef .tc main_v30)) (W6 m ρ c (Proc.devRef .tc main_arg5)) := by
  show StableHlo.after hostOps2 (W6 m ρ c) (Proc.devRef .tc main_v62) = _
  generalize W6 m ρ c = W
  after_results_simp
  rfl

/-! ## What stays put -/

/-- The middle stretch writes none of the buffers it only reads. -/
theorem mid_keeps (c : Dev nD) (b : Ref sig .tc) (hb : b = main_v3 ∨ b = main_v6 ∨ b = main_v30 ∨ b = main_arg4 ∨ b = main_arg5) :
    W5 m ρ c (Proc.devRef .tc b) = W4 m ρ c (Proc.devRef .tc b) := by
  show StableHlo.after hostOps1 (W4 m ρ c) (Proc.devRef .tc b) = _
  generalize W4 m ρ c = W
  rcases hb with rfl | rfl | rfl | rfl | rfl <;> (after_results_simp <;> rfl)

/-- At the first region's entry the arguments are as launched. -/
theorem entry_arg (c : Dev nD) (b : Ref sig .tc) (hb : b = main_arg0 ∨ b = main_arg2 ∨ b = main_arg3 ∨ b = main_arg4 ∨ b = main_arg5) :
    W3 m ρ c (Proc.devRef .tc b) = W0 m ρ c (Proc.devRef .tc b) := by
  show StableHlo.after hostOps0_2 (StableHlo.after hostOps0_1 (StableHlo.after hostOps0 (W0 m ρ c))) (Proc.devRef .tc b) = _
  generalize W0 m ρ c = W
  rcases hb with rfl | rfl | rfl | rfl | rfl <;> (after_results_simp <;> rfl)

end Cert.KernelIdeal.Layers

end
-- ==== Proof.Linear1.lean ====
/-
  The first layer's linear transform, computed by the kernel in 20 bands of 5000 rows.

  At each of the 20 grid points the body loads a band of 5000 feature rows and the whole 128 by 128 weight matrix and stores
  their product into the same band of the result (the rounding of the factors to a shorter format is the identity over the
  extended reals, and the accumulator starts at zero). Entry (p, q) of a band's product is the sum over k of x[p, k] * w[k, q];
  the band of point t starts at row 5000 * t, so the 20 bands tile the 100000 rows and the result array is the whole product.
-/
import proofs.«143653_j29257317220812_1_alg».proof.Proof.Gen.KernelIdeal.Frame
import proofs.«143653_j29257317220812_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.Pipeline (Dat)
open Cert.Gcn

/-! ## One block: the body's stored value at an entry -/

/-- The contraction's row coordinate of the left factor is the output's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Its column coordinate is the summation index. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right factor's row coordinate is the summation index. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Its column coordinate is the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of the stored band: the sum over k of x[p, k] * w[k, q]. -/
theorem pay_apply (x : Vec Ideal S5000x128 .f32) (w : Vec Ideal S128x128 .f32) (p : Fin 5000) (q : Fin 128) :
    k0_pay1 (F := Ideal) x w (ValueIdx.ix2 p q) = ∑ k : Fin 128, x (ValueIdx.ix2 p k) * w (ValueIdx.ix2 k q) := by
  refine (Ideal.matmul_constant_zero_apply dot_S5000x128_S128x128_S5000x128_1_0_0_1_n_n none _ _ (ValueIdx.ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ValueIdx.ix2 p q) ((ValueIdx.contrEquiv1 dot_S5000x128_S128x128_S5000x128_1_0_0_1_n_n 128 rfl rfl).symm k) = ValueIdx.ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ValueIdx.ix2 p q) ((ValueIdx.contrEquiv1 dot_S5000x128_S128x128_S5000x128_1_0_0_1_n_n 128 rfl rfl).symm k) = ValueIdx.ix2 k q := funext fun a => Fin.ext (by
    match a with
    | ⟨0, _⟩ => exact (rhs_row _ _).trans hk
    | ⟨1, _⟩ => exact rhs_col _ _)
  rw [el, er]
  rfl

/-! ## From blocks to the array -/

section Blocks

variable (V : (c : Dev nD) → (b : Ref sig .tc) → Buf (Elt Ideal) ((c : Thread nD τ).loc b))

theorem origin : (![0, 0] : Fin 2 → Nat) = fun _ => 0 := funext fun a => by fin_cases a <;> rfl

/-- Over the 20 grid points: the feature rows' block and the result's block sit at the same row offset, the point's number,
    in the only column block; the weights are one block. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every band of 5000 rows is some point's block. -/
theorem index_onto : ∀ b : Fin 20, ∃ t : Fin cfg0.N, win0_2.index t (0 : Fin 2) = b.val :=
  (by decide +kernel : ∀ b : Fin 20, ∃ t : Fin grid0.N, win0_2.index t (0 : Fin 2) = b.val)

/-- What point `t` writes back is its band of rows of the whole product. -/
theorem flushed_eq (c : Dev nD) (t : Fin cfg0.N) :
    (dat0 V c).flushed 2 t = ((cfg0.win 2).blk t).view.read (Elt Ideal) (linear (V c main_arg0) (V c main_arg2)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  obtain ⟨e0, e1, e2, e3, e4, e5⟩ := index_facts t
  funext j
  obtain ⟨p, q, rfl⟩ : ∃ (p : Fin 5000) (q : Fin 128), j = ValueIdx.ix2 p q := ⟨j 0, j 1, ValueIdx.eq_ix2 j⟩
  show k0_pay1 (F := Ideal) (iblk0 V c 0 t) (iblk0 V c 1 t) (ValueIdx.ix2 p q) = linear (V c main_arg0) (V c main_arg2) (((cfg0.win 2).blk t).view.emb (ValueIdx.ix2 p q))
  refine (pay_apply (iblk0 V c 0 t) (iblk0 V c 1 t) p q).trans ?_
  refine Finset.sum_congr rfl fun k _ => ?_
  have hx : ((cfg0.win 0).blk t).view.emb (ValueIdx.ix2 p k) = ValueIdx.ix2 (n0 := 100000) (n1 := 128) ((((cfg0.win 2).blk t).view.emb (ValueIdx.ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have hw : ((cfg0.win 1).blk t).view.emb (ValueIdx.ix2 k q) = ValueIdx.ix2 (n0 := 128) (n1 := 128) k ((((cfg0.win 2).blk t).view.emb (ValueIdx.ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  refine congrArg₂ _ ?_ ?_
  · exact congrArg (V c main_arg0) hx
  · exact congrArg (V c main_arg2) hw

/-- An entry is in point `t`'s block iff its row is in the point's band (the columns are all there). -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- The 20 bands of 5000 rows cover the 100000 rows. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := index_onto ⟨(i 0).val / 5000, by omega⟩
  have ht' : win0_2.index t (0 : Fin 2) = (i 0).val / 5000 := ht
  obtain ⟨e0, e1, e2, e3, e4, e5⟩ := index_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region its result array is the whole product of the arrays it entered with. -/
theorem result_eq (c : Dev nD) :
    (dat0 V c).arrAt 2 cfg0.N = linear (V c main_arg0) (V c main_arg2) :=
  (dat0 V c).arrAt_eq_of_cover 2 _ (fun t _ => flushed_eq V c t) cover

end Blocks

end Cert.KernelIdeal.Layer1

end
-- ==== Proof.Linear2.lean ====
/-
  The second layer's linear transform of the positive part, computed by the kernel in 20 bands of 5000 rows.

  At each of the 20 grid points the body loads a band of 5000 rows of the first layer's aggregate and the whole 128 by 128 weight
  matrix, takes the maximum of every loaded entry with zero, and stores the product with the weights into the same band of the
  result (the rounding of the factors to a shorter format is the identity over the extended reals, and the accumulator starts at
  zero). Entry (p, q) of a band's product is the sum over k of max(a[p, k], 0) * w[k, q]; the band of point t starts at row
  5000 * t, so the 20 bands tile the 100000 rows and the result array is the whole product of the positive part.
-/
import proofs.«143653_j29257317220812_1_alg».proof.Proof.Gen.KernelIdeal.Frame
import proofs.«143653_j29257317220812_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.Pipeline (Dat)
open Cert.Gcn

/-! ## One block: the body's stored value at an entry -/

/-- The contraction's row coordinate of the left factor is the output's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Its column coordinate is the summation index. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right factor's row coordinate is the summation index. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Its column coordinate is the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of the stored band: the sum over k of max(a[p, k], 0) * w[k, q]. -/
theorem pay_apply (x : Vec Ideal S5000x128 .f32) (w : Vec Ideal S128x128 .f32) (p : Fin 5000) (q : Fin 128) :
    k1_pay1 (F := Ideal) x w (ValueIdx.ix2 p q) = ∑ k : Fin 128, max (x (ValueIdx.ix2 p k)) 0 * w (ValueIdx.ix2 k q) := by
  have hpos : (maximumf (shapeCast S5000x128 x shapeCasts_S5000x128_S5000x128) (broadcast S5000x128 (Scalar.ofBits (F := Ideal) .f32 0x00000000#32)) : FVec Ideal S5000x128 .f32)
      = fun i => max (x i) 0 := by
    rw [shapeCast_self]
    funext i
    show max (x i) (Ideal.ofBits .f32 0x00000000#32) = max (x i) 0
    rw [Ideal.ofBits_zero_f32]
  show FloatOps.matmul dot_S5000x128_S128x128_S5000x128_1_0_0_1_n_n none
      (truncf .bf16 (maximumf (shapeCast S5000x128 x shapeCasts_S5000x128_S5000x128) (broadcast S5000x128 (Scalar.ofBits (F := Ideal) .f32 0x00000000#32))) bitsLt_bf16_f32)
      (truncf .bf16 w bitsLt_bf16_f32) (constant S5000x128 .f32 0x00000000#32) (ValueIdx.ix2 p q) = _
  rw [hpos]
  refine (Ideal.matmul_constant_zero_apply dot_S5000x128_S128x128_S5000x128_1_0_0_1_n_n none _ _ (ValueIdx.ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ValueIdx.ix2 p q) ((ValueIdx.contrEquiv1 dot_S5000x128_S128x128_S5000x128_1_0_0_1_n_n 128 rfl rfl).symm k) = ValueIdx.ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ValueIdx.ix2 p q) ((ValueIdx.contrEquiv1 dot_S5000x128_S128x128_S5000x128_1_0_0_1_n_n 128 rfl rfl).symm k) = ValueIdx.ix2 k q := funext fun a => Fin.ext (by
    match a with
    | ⟨0, _⟩ => exact (rhs_row _ _).trans hk
    | ⟨1, _⟩ => exact rhs_col _ _)
  rw [el, er]
  rfl

/-! ## From blocks to the array -/

section Blocks

variable (V : (c : Dev nD) → (b : Ref sig .tc) → Buf (Elt Ideal) ((c : Thread nD τ).loc b))

theorem origin : (![0, 0] : Fin 2 → Nat) = fun _ => 0 := funext fun a => by fin_cases a <;> rfl

/-- Over the 20 grid points: the feature rows' block and the result's block sit at the same row offset, the point's number,
    in the only column block; the weights are one block. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 19 :=
  (by decide +kernel : ∀ t : Fin grid1.N, _)

/-- Every band of 5000 rows is some point's block. -/
theorem index_onto : ∀ b : Fin 20, ∃ t : Fin cfg1.N, win1_2.index t (0 : Fin 2) = b.val :=
  (by decide +kernel : ∀ b : Fin 20, ∃ t : Fin grid1.N, win1_2.index t (0 : Fin 2) = b.val)

/-- What point `t` writes back is its band of rows of the whole product. -/
theorem flushed_eq (c : Dev nD) (t : Fin cfg1.N) :
    (dat1 V c).flushed 2 t = ((cfg1.win 2).blk t).view.read (Elt Ideal) (reluLinear (V c main_v46) (V c main_arg4)) := by
  show (cfg1.win 2).cut (grid1.coords t) ((dat1 V c).after 2 t) = _
  rw [after1_2]
  unfold out1_2
  rw [View.canon_unit_zero origin]
  simp only [View.ld_unit_zero (S := S5000x128) origin, View.ld_unit_zero (S := S128x128) origin]
  obtain ⟨e0, e1, e2, e3, e4, e5⟩ := index_facts t
  funext j
  obtain ⟨p, q, rfl⟩ : ∃ (p : Fin 5000) (q : Fin 128), j = ValueIdx.ix2 p q := ⟨j 0, j 1, ValueIdx.eq_ix2 j⟩
  show k1_pay1 (F := Ideal) (iblk1 V c 0 t) (iblk1 V c 1 t) (ValueIdx.ix2 p q) = reluLinear (V c main_v46) (V c main_arg4) (((cfg1.win 2).blk t).view.emb (ValueIdx.ix2 p q))
  refine (pay_apply (iblk1 V c 0 t) (iblk1 V c 1 t) p q).trans ?_
  refine Finset.sum_congr rfl fun k _ => ?_
  have hx : ((cfg1.win 0).blk t).view.emb (ValueIdx.ix2 p k) = ValueIdx.ix2 (n0 := 100000) (n1 := 128) ((((cfg1.win 2).blk t).view.emb (ValueIdx.ix2 p q)) 0) k := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * k.val = k.val; omega
  have hw : ((cfg1.win 1).blk t).view.emb (ValueIdx.ix2 k q) = ValueIdx.ix2 (n0 := 128) (n1 := 128) k ((((cfg1.win 2).blk t).view.emb (ValueIdx.ix2 p q)) 1) := by
    funext a; apply Fin.ext
    match a with
    | ⟨0, _⟩ => show win1_1.index t (0 : Fin 2) * 128 + 1 * k.val = k.val; omega
    | ⟨1, _⟩ => show win1_1.index t (1 : Fin 2) * 128 + 1 * q.val = win1_2.index t (1 : Fin 2) * 128 + 1 * q.val; omega
  refine congrArg₂ _ ?_ ?_
  · exact congrArg (fun z : EReal => max z 0) (congrArg (V c main_v46) hx)
  · exact congrArg (V c main_arg4) hw

/-- An entry is in point `t`'s block iff its row is in the point's band (the columns are all there). -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- The 20 bands of 5000 rows cover the 100000 rows. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := index_onto ⟨(i 0).val / 5000, by omega⟩
  have ht' : win1_2.index t (0 : Fin 2) = (i 0).val / 5000 := ht
  obtain ⟨e0, e1, e2, e3, e4, e5⟩ := index_facts t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region its result array is the whole product of the arrays it entered with. -/
theorem result_eq (c : Dev nD) :
    (dat1 V c).arrAt 2 cfg1.N = reluLinear (V c main_v46) (V c main_arg4) :=
  (dat1 V c).arrAt_eq_of_cover 2 _ (fun t _ => flushed_eq V c t) cover

end Blocks

end Cert.KernelIdeal.Layer2

end
-- ==== Proof.KernelValue.lean ====
/-
  What the kernel's program leaves in its result buffer, over the extended reals: the two layers.

  The last stretch of host operations aggregates the second region's result; that region's result is the matrix product of the
  positive part of what it entered with, which the middle stretch made as the aggregate of the first region's result; and the
  first region's result is the matrix product of the features and the first weights. The edge arrays, the weights and the
  arguments are the same at every boundary, so the result is `twoLayers` of the arguments.
-/
import proofs.«143653_j29257317220812_1_alg».proof.Proof.KernelHost
import proofs.«143653_j29257317220812_1_alg».proof.Proof.Linear1
import proofs.«143653_j29257317220812_1_alg».proof.Proof.Linear2

set_option maxRecDepth 16384

noncomputable section

namespace Cert.KernelIdeal.Layers

open Cert.KernelIdeal Cert.KernelIdeal.Gen Idealize.ShloMosaic Idealize.ShloMosaic.TcCoe Idealize.SL.Sem
open Cert.ReferenceIdeal.Layers (aggregate twoLayers)
open Cert.Gcn

variable (m : (ℓ : Loc nD τ sig) → Buf (Elt Ideal) ℓ) (ρ : Dev nD → PrngReg)

/-- The first region's result: the features times the first weights. -/
theorem first_region (c : Dev nD) :
    W4 m ρ c (Proc.devRef .tc main_v31) = linear (m ((c : Thread nD τ).loc main_arg0)) (m ((c : Thread nD τ).loc main_arg2)) := by
  refine ((W4_arr m ρ c 2).trans (Layer1.result_eq (V3 m ρ) c)).trans ?_
  have h0 : V3 m ρ c main_arg0 = m ((c : Thread nD τ).loc main_arg0) := entry_arg m ρ c main_arg0 (Or.inl rfl)
  have h2 : V3 m ρ c main_arg2 = m ((c : Thread nD τ).loc main_arg2) := entry_arg m ρ c main_arg2 (Or.inr (Or.inl rfl))
  rw [h0, h2]

/-- The edge arrays and weights between the regions are those before the first. -/
theorem src_mid (c : Dev nD) : W4 m ρ c (Proc.devRef .tc main_v3) = Cert.ReferenceIdeal.ReadP.val_main_v3 (F := Ideal) (m ((c : Thread nD τ).loc main_arg1)) :=
  (W4_of_ne m ρ c main_v3 (by decide)).trans (src_eq m ρ c)
theorem dst_mid (c : Dev nD) : W4 m ρ c (Proc.devRef .tc main_v6) = Cert.ReferenceIdeal.ReadP.val_main_v6 (F := Ideal) (m ((c : Thread nD τ).loc main_arg1)) :=
  (W4_of_ne m ρ c main_v6 (by decide)).trans (dst_eq m ρ c)
theorem norm_mid (c : Dev nD) : W4 m ρ c (Proc.devRef .tc main_v30) = Cert.ReferenceIdeal.ReadP.val_main_v38 (F := Ideal) (m ((c : Thread nD τ).loc main_arg1)) :=
  (W4_of_ne m ρ c main_v30 (by decide)).trans (norm_eq m ρ c)
theorem bias1_mid (c : Dev nD) : W4 m ρ c (Proc.devRef .tc main_arg3) = m ((c : Thread nD τ).loc main_arg3) :=
  (W4_of_ne m ρ c main_arg3 (by decide)).trans (entry_arg m ρ c main_arg3 (Or.inr (Or.inr (Or.inl rfl))))
theorem wts2_mid (c : Dev nD) : W4 m ρ c (Proc.devRef .tc main_arg4) = m ((c : Thread nD τ).loc main_arg4) :=
  (W4_of_ne m ρ c main_arg4 (by decide)).trans (entry_arg m ρ c main_arg4 (Or.inr (Or.inr (Or.inr (Or.inl rfl)))))
theorem bias2_mid (c : Dev nD) : W4 m ρ c (Proc.devRef .tc main_arg5) = m ((c : Thread nD τ).loc main_arg5) :=
  (W4_of_ne m ρ c main_arg5 (by decide)).trans (entry_arg m ρ c main_arg5 (Or.inr (Or.inr (Or.inr (Or.inr rfl)))))

/-- What the second region enters with: the first layer's aggregate. -/
theorem first_aggregate (c : Dev nD) :
    W5 m ρ c (Proc.devRef .tc main_v46)
      = aggregate (F := Ideal) (linear (m ((c : Thread nD τ).loc main_arg0)) (m ((c : Thread nD τ).loc main_arg2)))
          (Cert.ReferenceIdeal.ReadP.val_main_v3 (F := Ideal) (m ((c : Thread nD τ).loc main_arg1)))
          (Cert.ReferenceIdeal.ReadP.val_main_v6 (F := Ideal) (m ((c : Thread nD τ).loc main_arg1)))
          (Cert.ReferenceIdeal.ReadP.val_main_v38 (F := Ideal) (m ((c : Thread nD τ).loc main_arg1)))
          (m ((c : Thread nD τ).loc main_arg3)) := by
  rw [mid_eq, first_region, src_mid, dst_mid, norm_mid, bias1_mid]

/-- The second region's result: the positive part of the first layer's aggregate times the second weights. -/
theorem second_region (c : Dev nD) :
    W6 m ρ c (Proc.devRef .tc main_v47)
      = reluLinear (W5 m ρ c (Proc.devRef .tc main_v46)) (m ((c : Thread nD τ).loc main_arg4)) := by
  refine ((W6_arr m ρ c 2).trans (Layer2.result_eq (V5 m ρ) c)).trans ?_
  have h4 : V5 m ρ c main_arg4 = m ((c : Thread nD τ).loc main_arg4) :=
    (mid_keeps m ρ c main_arg4 (Or.inr (Or.inr (Or.inr (Or.inl rfl))))).trans (wts2_mid m ρ c)
  rw [h4]

/-- The result buffer after the run: the two layers of the arguments. -/
theorem value_eq (c : Dev nD) :
    W7 m ρ c (Proc.devRef .tc main_v62)
      = twoLayers (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have k3 : W6 m ρ c (Proc.devRef .tc main_v3) = Cert.ReferenceIdeal.ReadP.val_main_v3 (F := Ideal) (m ((c : Thread nD τ).loc main_arg1)) :=
    (W6_of_ne m ρ c main_v3 (by decide)).trans ((mid_keeps m ρ c main_v3 (Or.inl rfl)).trans (src_mid m ρ c))
  have k6 : W6 m ρ c (Proc.devRef .tc main_v6) = Cert.ReferenceIdeal.ReadP.val_main_v6 (F := Ideal) (m ((c : Thread nD τ).loc main_arg1)) :=
    (W6_of_ne m ρ c main_v6 (by decide)).trans ((mid_keeps m ρ c main_v6 (Or.inr (Or.inl rfl))).trans (dst_mid m ρ c))
  have k30 : W6 m ρ c (Proc.devRef .tc main_v30) = Cert.ReferenceIdeal.ReadP.val_main_v38 (F := Ideal) (m ((c : Thread nD τ).loc main_arg1)) :=
    (W6_of_ne m ρ c main_v30 (by decide)).trans ((mid_keeps m ρ c main_v30 (Or.inr (Or.inr (Or.inl rfl)))).trans (norm_mid m ρ c))
  have k5 : W6 m ρ c (Proc.devRef .tc main_arg5) = m ((c : Thread nD τ).loc main_arg5) :=
    (W6_of_ne m ρ c main_arg5 (by decide)).trans ((mid_keeps m ρ c main_arg5 (Or.inr (Or.inr (Or.inr (Or.inr rfl))))).trans (bias2_mid m ρ c))
  rw [out_eq, second_region, first_aggregate, k3, k6, k30, k5]
  rfl

end Cert.KernelIdeal.Layers

end
-- ==== Proof.lean ====
/-
  Two layers of graph convolution over 100000 nodes with 128 features: the kernel's program against the reference, over the
  extended reals.

  Both programs build the same edge list (the given edges and one self loop per node), the same degrees and per-edge weights, and
  aggregate over the edges with the same host operations; they differ in the linear transforms. The reference multiplies the whole
  feature matrix by the weights in one host product; the kernel's program runs a kernel over 20 bands of 5000 rows that stores each
  band's product (Proof/Linear1.lean), and a second kernel that first takes the positive part (Proof/Linear2.lean), where the
  reference applies a separate maximum with zero. Over the extended reals a band's product is the whole product's band, so both
  programs end with `twoLayers` of their arguments (Proof/KernelValue.lean for the kernel's program, Proof/Aggregate.lean for the
  reference). No law of arithmetic beyond reading a matrix product as its sum is used, so the inputs' finiteness is never opened.
-/
import proofs.«143653_j29257317220812_1_alg».proof.Defs
import proofs.«143653_j29257317220812_1_alg».proof.Proof.Gen.Kernel
import proofs.«143653_j29257317220812_1_alg».proof.Proof.Gen.Kernel.Frame
import proofs.«143653_j29257317220812_1_alg».proof.Proof.Gen.KernelIdeal
import proofs.«143653_j29257317220812_1_alg».proof.Proof.Gen.KernelIdeal.Frame
import proofs.«143653_j29257317220812_1_alg».proof.Proof.Gen.ReferenceIdeal
import proofs.«143653_j29257317220812_1_alg».proof.Proof.Gen.Pre_finite_inputs
import proofs.«143653_j29257317220812_1_alg».proof.Proof.KernelRun
import proofs.«143653_j29257317220812_1_alg».proof.Proof.KernelValue
import proofs.«143653_j29257317220812_1_alg».proof.Proof.Aggregate
import Idealize.ShloMosaic.Adequacy
import Idealize.ShloMosaic.Init

noncomputable section

namespace Cert.Proof

open Idealize.ShloMosaic Idealize.SL.Sem

/-- The kernel's program runs and keeps its arguments. -/
theorem frame_kernel : Cert.frame_Kernel := fun m ρ _ => Cert.Kernel.Gen.frame m ρ
/-- So does its reading over the extended reals. -/
theorem frame_kernelIdeal : Cert.frame_KernelIdeal := fun m ρ _ => Cert.KernelIdeal.Gen.frame m ρ
/-- The reference is host operations only: its run, with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Both programs end with the two layers of the arguments they agree on. -/
theorem algebraic : Cert.algebraic_KernelIdeal_ReferenceIdeal := by
  intro m ρ m' ρ' _ hagree
  refine ⟨fun c => Cert.ReferenceIdeal.Layers.twoLayers
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Layers.value_eq m ρ c), (h c).2⟩)
      (Cert.KernelIdeal.GenP.run_out (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v79_eq, Cert.ReferenceIdeal.Layers.reference_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
